-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x256 : Shape := ⟨2, ![320000, 256]⟩
abbrev S2x320000 : Shape := ⟨2, ![2, 320000]⟩
abbrev S_ : Shape := ⟨0, ![]⟩

class Facts : Prop where
  bcast_S_S320000x256 : S_.BroadcastsInDim S320000x256 (![] : Fin 0 → Fin S320000x256.rank)
  reducesTo_S320000x256_S_d0_1 : S320000x256.ReducesTo [0, 1] S_
  h_S_ : 0 < S_.numel

variable [Facts]

def fn {F : FTy → Type} [FloatOps F] (main_arg0 : FVec F S320000x256 .f32) (main_arg1 : IVec S2x320000 32) : IVec S_ 1 :=
  let main_v0 : FVec F S320000x256 .f32 := Host.absf main_arg0
  let main_cst : FVec F S_ .f32 := constant S_ .f32 0x7F800000#32
  let main_v1 : FVec F S320000x256 .f32 := broadcastInDim S320000x256 ![] bcast_S_S320000x256 main_cst
  let main_v2 : IVec S320000x256 1 := cmpf .olt main_v0 main_v1
  let main_c : IVec S_ 1 := constantI S_ 1 1#1
  let main_v3 : IVec S_ 1 := (fun x v => Host.reduce IntOp.andi x v reducesTo_S320000x256_S_d0_1 h_S_) main_v2 main_c
  main_v3
-- ==== Kernel.lean ====
abbrev S320000x256 : Shape := ⟨2, ![320000, 256]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S321536x256 : Shape := ⟨2, ![321536, 256]⟩
abbrev S321536 : Shape := ⟨1, ![321536]⟩
abbrev S10240x256 : Shape := ⟨2, ![10240, 256]⟩
abbrev S2048x256 : Shape := ⟨2, ![2048, 256]⟩
abbrev S2048 : Shape := ⟨1, ![2048]⟩
abbrev S5120x256 : Shape := ⟨2, ![5120, 256]⟩
abbrev S1x5120 : Shape := ⟨2, ![1, 5120]⟩
abbrev S2048x1 : Shape := ⟨2, ![2048, 1]⟩
abbrev S2048x5120 : Shape := ⟨2, ![2048, 5120]⟩
abbrev S10000x256 : Shape := ⟨2, ![10000, 256]⟩

abbrev nBuf : Space → Nat
  | .hbm => 23
  | .vmem => 5
  | .smem => 0
  | _ => 0

abbrev bufTy : (tb : Table) → Fin (tcTables nBuf tb) → BufTy
  | .hbm, ⟨0, _⟩ => ⟨S320000x256, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S320000, .i1⟩
  | .hbm, ⟨11, _⟩ => ⟨S_, .i32⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S_, .i32⟩
  | .hbm, ⟨16, _⟩ => ⟨S_, .f32⟩
  | .hbm, ⟨17, _⟩ => ⟨S321536x256, .f32⟩
  | .hbm, ⟨18, _⟩ => ⟨S_, .i32⟩
  | .hbm, ⟨19, _⟩ => ⟨S_, .i32⟩
  | .hbm, ⟨20, _⟩ => ⟨S321536, .i32⟩
  | .hbm, ⟨21, _⟩ => ⟨S10240x256, .f32⟩
  | .hbm, ⟨22, _⟩ => ⟨S10000x256, .f32⟩
  | .local _ .vmem, ⟨0, _⟩ => ⟨S2048x256, .f32⟩
  | .local _ .vmem, ⟨1, _⟩ => ⟨S2048x256, .f32⟩
  | .local _ .vmem, ⟨2, _⟩ => ⟨S2048, .i32⟩
  | .local _ .vmem, ⟨3, _⟩ => ⟨S2048, .i32⟩
  | .local _ .vmem, ⟨4, _⟩ => ⟨S5120x256, .f32⟩
  | _, _ => ⟨S320000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_2 : Ref sig .tc := ⟨.hbm, 15, rfl⟩
abbrev main_call1_v0 : Ref sig .tc := ⟨.hbm, 16, rfl⟩
abbrev main_v8 : Ref sig .tc := ⟨.hbm, 17, rfl⟩
abbrev main_c_3 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 157], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5120x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  pads_S320000x256_S321536x256_015360_000 : S320000x256.Pads (![0, 0] : Fin 2 → Nat) ![1536, 0] ![0, 0] S321536x256
  h_S_ : 0 < S_.numel
  pads_S320000_S321536_015360 : S320000.Pads (![0] : Fin 1 → Nat) ![1536] ![0] S321536
  inb_S5120x256_S5120x256_0_0 : ∀ a, (![0, 0] : Fin 2 → Nat) a + S5120x256.size a ≤ S5120x256.size a
  h_S5120x256 : 0 < S5120x256.numel
  inb_S2048_S2048_0 : ∀ a, (![0] : Fin 1 → Nat) a + S2048.size a ≤ S2048.size a
  h_S2048 : 0 < S2048.numel
  shapeCasts_S2048_S2048 : S2048.ShapeCasts S2048
  iota_S1x5120_d1_w32 : S1x5120.Iotas .tc 32 [1]
  shapeCasts_S2048_S2048x1 : S2048.ShapeCasts S2048x1
  broadcasts_S2048x1_S2048x5120 : S2048x1.Broadcasts S2048x5120
  broadcasts_S1x5120_S2048x5120 : S1x5120.Broadcasts S2048x5120
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S5120x256_S5120x256 : S5120x256.ShapeCasts S5120x256
  slices_S10240x256_S10000x256_0_0 : S10240x256.Slices ![0, 0] S10000x256
  dot_S2048x5120_S2048x256_S5120x256_0_0_1_1_n_n_wf : DotDims.WF S2048x5120 S2048x256 S5120x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S321536x256.size a
  hwx0_0 : ∀ i : grid0.Coords, EltTy.bits .f32 = 32 ∨ (Rect.block (s := S321536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S321536.size a
  hwx0_1 : ∀ i : grid0.Coords, EltTy.bits .i32 = 32 ∨ (Rect.block (s := S321536) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5120x256.size a ≤ S10240x256.size a
  hwx0_2 : ∀ i : grid0.Coords, EltTy.bits .f32 = 32 ∨ (Rect.block (s := S10240x256) S5120x256.size (cc0_transform_2 i) (hinb0_2 i)).WholeWords (EltTy.packing .f32)

variable [Facts₀]

def dot_S2048x5120_S2048x256_S5120x256_0_0_1_1_n_n : DotDims S2048x5120 S2048x256 S5120x256 where
  lhsContracting := [0]
  rhsContracting := [0]
  lhsNonContracting := [1]
  rhsNonContracting := [1]
  lhsBatch := []
  rhsBatch := []
  wf := dot_S2048x5120_S2048x256_S5120x256_0_0_1_1_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5120x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S320000x256 : Shape := ⟨2, ![320000, 256]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S10000x256 : Shape := ⟨2, ![10000, 256]⟩
abbrev S320000x1 : Shape := ⟨2, ![320000, 1]⟩

abbrev nBuf : Space → Nat
  | .hbm => 8
  | .vmem => 0
  | .smem => 0
  | _ => 0

abbrev bufTy : (tb : Table) → Fin (tcTables nBuf tb) → BufTy
  | .hbm, ⟨0, _⟩ => ⟨S320000x256, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S_, .f32⟩
  | .hbm, ⟨5, _⟩ => ⟨S10000x256, .f32⟩
  | .hbm, ⟨6, _⟩ => ⟨S320000x1, .i32⟩
  | .hbm, ⟨7, _⟩ => ⟨S10000x256, .f32⟩
  | _, _ => ⟨S320000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S10000x256 : S_.BroadcastsInDim S10000x256 (![] : Fin 0 → Fin S10000x256.rank)
  bcast_S320000_S320000x1_0 : S320000.BroadcastsInDim S320000x1 (![0] : Fin 1 → Fin S320000x1.rank)
  scatter_S10000x256_S320000x1_S320000x256_1_0_0_1_wf : ScatterDims.WF S10000x256 S320000x1 S320000x256 [1] [0] [0] 1

variable [Facts₀]

def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.KPieces.lean ====
/-
  What one grid point leaves in the output block's staging buffer, read back as a value.

  The body first (only at the first edge block of a node half) overwrites the whole block with zeros,
  then loads the edge block's target words, the edge block's messages and the block itself, and stores
  over the whole block ONE payload: the block as loaded plus the product of the one-hot matrix with the
  messages. So after the point the buffer holds that payload, computed from the block as it stood
  before (a later point) or from the zero block (the first point of a half).
-/
import proofs.«426452_j51994874085829_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A later edge block of a half: the buffer holds `xo`; the one covering store leaves the payload of
    the target words `x1`, the messages `x0` and `xo`. -/
theorem out_B (c : Dev nD) (i : grid0.Coords) (a2 : Memref sig .tc .vmem S2048x256 .f32) (h2 : a2.IsWhole)
    (a3 : Memref sig .tc .vmem S2048 .i32) (h3 : a3.IsWhole) (a4 : Memref sig .tc .vmem S5120x256 .f32) (h4 : a4.IsWhole)
    (hc : ¬cond0_0 i) (x0 : Vec F S2048x256 .f32) (x1 : Vec F S2048 .i32) (xo : Vec F S5120x256 .f32) :
    out0_B_2 c i a2 h2 a3 h3 a4 h4 hc x0 x1 xo = k0_pay2 i x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S2048x256) hz2,
    View.ld_unit_zero (S := S2048) hz1, View.ld_unit_zero (S := S5120x256) hz2]

/-- The first edge block of a half: the zero block is stored first and read back, so the payload is
    computed from the zero block. -/
theorem out_A (c : Dev nD) (i : grid0.Coords) (a2 : Memref sig .tc .vmem S2048x256 .f32) (h2 : a2.IsWhole)
    (a3 : Memref sig .tc .vmem S2048 .i32) (h3 : a3.IsWhole) (a4 : Memref sig .tc .vmem S5120x256 .f32) (h4 : a4.IsWhole)
    (hc : cond0_0 i) (x0 : Vec F S2048x256 .f32) (x1 : Vec F S2048 .i32) :
    out0_A_2 c i a2 h2 a3 h3 a4 h4 hc x0 x1 = k0_pay2 i x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S5120x256) hz2, View.readCov_unit_zero (S := S5120x256) _ hz2]
  simp only [View.readAt_eq_ld, h2.read_unread, h3.read_unread, View.ld_unit_zero (S := S2048x256) hz2,
    View.ld_unit_zero (S := S2048) hz1]

end Cert.KernelIdeal.Acc

end
-- ==== Proof.LibMatmulT.lean ====
/-
  A matrix product whose LEFT operand is contracted on its ROW axis, read at an index, at the ideal
  instance.

  Left operand `A` of shape `[K, M]`, right operand `B` of shape `[K, N]`, both contracted on axis 0,
  result `[M, N]`: element `(a, b)` of the result is the accumulator's plus `∑ c, A[c, a] · B[c, b]`
  — the product `Aᵀ B`, the sum over the extended reals with no rounding and no chunk order.
-/
import Idealize.ShloMosaic.PureOps.Ideal.Laws
import Idealize.ShloMosaic.Lib.ValueIdx

noncomputable section

namespace Idealize.ShloMosaic.MatmulT

open Idealize.ShloMosaic Idealize.ShloMosaic.ValueIdx

/-- The dimension numbers of `Aᵀ B`: contract axis 0 of both operands, keep axis 1 of each. -/
abbrev lhsTDims (K M N : Nat)
    (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  ⟨[0], [0], [1], [1], [], [], w⟩

/-- `Aᵀ B` into an accumulator, read at `(a, b)`. -/
theorem matmul_lhsT_apply {K M N : Nat} {φ₁ φ₂ : FTy}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (acc : FVec Ideal ⟨2, ![M, N]⟩ .f32) (a : Fin M) (b : Fin N) :
    FloatOps.matmul (lhsTDims K M N w) prec A B acc (ix2 a b)
      = acc (ix2 a b) + ∑ c : Fin K, A (ix2 c a) * B (ix2 c b) := by
  rw [Ideal.matmul_apply, ← Equiv.sum_comp (contrEquiv1 (lhsTDims K M N w) K rfl rfl).symm]
  congr 1
  refine Finset.sum_congr rfl fun c _ => ?_
  have c2 := contrEquiv1_symm_val (lhsTDims K M N w) K rfl rfl c
  have l2 : (lhsTDims K M N w).lhsIdx (ix2 a b) ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (lhsTDims K M N w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.MatmulT

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KPayload.lean ====
/-
  The stored payload at an index, over the extended reals.

  For the node half `h` (grid coordinate 0) the body compares each target word of the edge block with
  the node numbers `5120·h + p` of the half: entry `(k, p)` of that one-hot matrix is the 0/1 word of
  "edge `k` of the block targets node `5120·h + p`", widened and converted to a float. Its transpose
  times the message block, into a zero accumulator, is added to the block as loaded. So at `(p, q)`
  the payload is the loaded block's entry plus `∑ₖ hot(k, p) · msg(k, q)`.
-/
import proofs.«426452_j51994874085829_3_alg».proof.Proof.Gen.KernelIdeal.Skeleton
import proofs.«426452_j51994874085829_3_alg».proof.Proof.LibMatmulT
import proofs.«426452_j51994874085829_3_alg».proof.Proof.LibKeepdimsColumn
import Idealize.ShloMosaic.Lib.Pipeline.Value
import Idealize.ShloMosaic.Lib.ValueLayout
import Idealize.ShloMosaic.Lib.ValueIdxRank1

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Idealize.ShloMosaic.MatmulT Cert.Lib.KeepdimsColumn

/-- The word of node `p` of half `h`, as the body computes it: `h · 5120 + p` in 32-bit arithmetic. -/
def nodeWord (h : ℕ) (p : Fin 5120) : BitVec 32 :=
  IntOp.addi (Scalar.muli (BitVec.ofNat 32 h) 5120#32) (BitVec.ofNat 32 p.val)

/-- One entry of the one-hot matrix: the comparison's bit, widened to 32 bits, read as a signed integer. -/
def hotEntry (a b : BitVec 32) : EReal := ((((IntOp.cmpi .eq a b).setWidth 32).toInt : ℝ) : EReal)

/-- The product's dimension numbers are those of `Aᵀ B`. -/
theorem dot_eq : dot_S2048x5120_S2048x256_S5120x256_0_0_1_1_n_n
    = lhsTDims 2048 5120 256 Facts₀.dot_S2048x5120_S2048x256_S5120x256_0_0_1_1_n_n_wf := rfl

/-- Entry `(k, p)` of the one-hot matrix the body builds from the target words `v3`. -/
theorem hot_apply (h : ℕ) (v3 : Vec Ideal S2048 .i32) (k : Fin 2048) (p : Fin 5120) :
    (truncf .bf16 (sitofp (F := Ideal) .f32 (extui 32 (cmpi .eq
        (broadcastTo S2048x5120 (shapeCast S2048x1 v3 shapeCasts_S2048_S2048x1) broadcasts_S2048x1_S2048x5120)
        (broadcastTo S2048x5120 (addi (broadcast S1x5120 (Scalar.muli (BitVec.ofNat 32 h) 5120#32)) (iota .tc S1x5120 32 [1] iota_S1x5120_d1_w32)) broadcasts_S1x5120_S2048x5120))
      natLt_1_32)) bitsLt_bf16_f32 : FVec Ideal S2048x5120 .bf16) (ix2 k p)
      = hotEntry (v3 (ix1 k)) (nodeWord h p) := by
  show ((((IntOp.cmpi .eq (broadcastTo S2048x5120 _ _ (ix2 k p)) (broadcastTo S2048x5120 _ _ (ix2 k p))).setWidth 32).toInt : ℝ) : EReal) = _
  rw [broadcastTo_a1_ab_apply, broadcastTo_1b_ab_apply, shapeCast_a_a1_apply]
  show _ = ((((IntOp.cmpi .eq (v3 (ix1 k)) (nodeWord h p)).setWidth 32).toInt : ℝ) : EReal)
  congr 5
  show IntOp.addi _ (iota .tc S1x5120 32 [1] iota_S1x5120_d1_w32 (ix2 (0 : Fin 1) p)) = _
  rw [iota_single_apply]
  rfl

/-- THE PAYLOAD AT `(p, q)`. -/
theorem pay2_apply (i : grid0.Coords) (v3 : Vec Ideal S2048 .i32) (v16 : Vec Ideal S2048x256 .f32)
    (v20 : Vec Ideal S5120x256 .f32) (p : Fin 5120) (q : Fin 256) :
    k0_pay2 (F := Ideal) i v3 v16 v20 (ix2 p q)
      = v20 (ix2 p q) + ∑ k : Fin 2048, hotEntry (v3 (ix1 k)) (nodeWord (i 0).val p) * v16 (ix2 k q) := by
  unfold k0_pay2
  dsimp only
  simp only [shapeCast_self, matmul]
  rw [addf_apply, dot_eq]
  rw [matmul_lhsT_apply]
  show _ + (Ideal.ofBits .f32 0x00000000#32 + _) = _
  rw [Ideal.ofBits_zero_f32, zero_add]
  congr 1
  refine Finset.sum_congr rfl fun k _ => ?_
  rw [hot_apply]
  rfl

end Cert.KernelIdeal.Acc

end
-- ==== Proof.KBlocks.lean ====
/-
  The two input blocks of a grid point, read at an index of the padded arrays.

  The grid is (node half, edge block), the edge block fastest: point `t` is half `t / 157`, edge block
  `t % 157`. The message window's block at `t` is rows `2048·(t % 157) …` of the padded message array,
  all 256 columns; the target window's block is the same 2048 entries of the padded target vector.
-/
import proofs.«426452_j51994874085829_3_alg».proof.Proof.Gen.KernelIdeal.Frame
import Idealize.ShloMosaic.Lib.Pipeline.Value
import Idealize.ShloMosaic.Lib.ValueIdxRank1

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The padded message array and the padded target vector, as the kernel's region finds them. -/
abbrev msgArr (c : Dev nD) : Vec Ideal S321536x256 .f32 := V m c main_v8
abbrev tgtArr (c : Dev nD) : Vec Ideal S321536 .i32 := V m c main_v9
/-- The message block and the target block of point `t`. -/
abbrev msgBlk (c : Dev nD) (t : Fin cfg0.N) : Vec Ideal S2048x256 .f32 := iblk m c 0 t
abbrev tgtBlk (c : Dev nD) (t : Fin cfg0.N) : Vec Ideal S2048 .i32 := iblk m c 1 t

/-- A padded edge number as an index of the padded arrays (total in the number: taken modulo the length). -/
def edgeIdx (e : ℕ) : Fin 321536 := ⟨e % 321536, Nat.mod_lt _ (by decide)⟩

theorem edgeIdx_val_of_lt {e : ℕ} (h : e < 321536) : (edgeIdx e).val = e := Nat.mod_eq_of_lt h

/-- Where the windows' blocks sit, and which half a point belongs to: decided over the grid's 314 points. -/
theorem idx_msg : ∀ t : Fin cfg0.N, win0_0.index t (0 : Fin 2) = t.val % 157 ∧ win0_0.index t (1 : Fin 2) = 0 :=
  (by decide +kernel : ∀ t : Fin grid0.N, win0_0.index t (0 : Fin 2) = t.val % 157 ∧ win0_0.index t (1 : Fin 2) = 0)
theorem idx_tgt : ∀ t : Fin cfg0.N, win0_1.index t (0 : Fin 1) = t.val % 157 :=
  (by decide +kernel : ∀ t : Fin grid0.N, win0_1.index t (0 : Fin 1) = t.val % 157)
theorem idx_out : ∀ t : Fin cfg0.N, win0_2.index t (0 : Fin 2) = t.val / 157 ∧ win0_2.index t (1 : Fin 2) = 0 :=
  (by decide +kernel : ∀ t : Fin grid0.N, win0_2.index t (0 : Fin 2) = t.val / 157 ∧ win0_2.index t (1 : Fin 2) = 0)
theorem coord_half : ∀ t : Fin cfg0.N, (grid0.coords t 0).val = t.val / 157 :=
  (by decide +kernel : ∀ t : Fin grid0.N, (grid0.coords t 0).val = t.val / 157)

/-- Entry `(k, q)` of the message block at `t` is row `2048·(t % 157) + k`, column `q`, of the padded messages. -/
theorem msgBlk_apply (c : Dev nD) (t : Fin cfg0.N) (k : Fin 2048) (q : Fin 256) :
    msgBlk m c t (ix2 k q) = msgArr m c (ix2 (edgeIdx (t.val % 157 * 2048 + k.val)) q) := by
  have hk := k.isLt
  have ht : t.val % 157 < 157 := Nat.mod_lt _ (by decide)
  unfold msgBlk iblk
  rw [View.read_apply]
  show V m c main_v8 _ = V m c main_v8 _
  congr 1
  funext a
  apply Fin.ext
  match a with
  | ⟨0, _⟩ =>
    show win0_0.index t 0 * 2048 + 1 * k.val = (edgeIdx (t.val % 157 * 2048 + k.val)).val
    rw [(idx_msg t).1, edgeIdx_val_of_lt (by omega)]; omega
  | ⟨1, _⟩ =>
    show win0_0.index t 1 * 256 + 1 * q.val = q.val
    rw [(idx_msg t).2]; omega

/-- Entry `k` of the target block at `t` is entry `2048·(t % 157) + k` of the padded targets. -/
theorem tgtBlk_apply (c : Dev nD) (t : Fin cfg0.N) (k : Fin 2048) :
    tgtBlk m c t (ix1 k) = tgtArr m c (ix1 (edgeIdx (t.val % 157 * 2048 + k.val))) := by
  have hk := k.isLt
  have ht : t.val % 157 < 157 := Nat.mod_lt _ (by decide)
  unfold tgtBlk iblk
  rw [View.read_apply]
  show V m c main_v9 _ = V m c main_v9 _
  congr 1
  funext a
  apply Fin.ext
  match a with
  | ⟨0, _⟩ =>
    show win0_1.index t 0 * 2048 + 1 * k.val = (edgeIdx (t.val % 157 * 2048 + k.val)).val
    rw [idx_tgt t, edgeIdx_val_of_lt (by omega)]; omega

end Cert.KernelIdeal.Acc

end
-- ==== Proof.KAccum.lean ====
/-
  The running contents of the output block: a partial sum over the padded edges.

  Within one node half the points run over the edge blocks in order. The first point of a half stores
  the zero block plus its edge block's contributions; each later point adds its own. So after the
  point of edge block `b` of half `h`, entry `(p, q)` of the block is the sum, over the padded edges
  `e < 2048·(b + 1)`, of `hot(e, node 5120·h + p) · msg(e, q)`.
-/
import proofs.«426452_j51994874085829_3_alg».proof.Proof.KPieces
import proofs.«426452_j51994874085829_3_alg».proof.Proof.KPayload
import proofs.«426452_j51994874085829_3_alg».proof.Proof.KBlocks

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- What padded edge `e` contributes to node `p` of half `h`, column `q`: its message entry when its
    target word is the node's word, zero times it otherwise. -/
def term (T : Vec Ideal S321536 .i32) (M : Vec Ideal S321536x256 .f32) (h : ℕ) (p : Fin 5120) (q : Fin 256) (e : ℕ) : EReal :=
  hotEntry (T (ix1 (edgeIdx e))) (nodeWord h p) * M (ix2 (edgeIdx e) q)

/-- A sum over the first `b` blocks of 2048 plus the sum over block `b` is the sum over the first `b + 1`. -/
theorem sum_block (f : ℕ → EReal) (b : ℕ) :
    ∑ e ∈ Finset.range (b * 2048), f e + ∑ k : Fin 2048, f (b * 2048 + k.val)
      = ∑ e ∈ Finset.range ((b + 1) * 2048), f e := by
  rw [Nat.add_mul, Nat.one_mul, Finset.sum_range_add, Fin.sum_univ_eq_sum_range (fun k => f (b * 2048 + k))]

/-- The block the reset stores is zero everywhere. -/
theorem pay1_apply (j : S5120x256.Idx) : k0_pay1 (F := Ideal) j = 0 := by
  show Ideal.ofBits .f32 0x00000000#32 = 0
  exact Ideal.ofBits_zero_f32

/-- THE RUNNING SUM: what the output block holds after point `n`, at `(p, q)`. -/
theorem outsAt_apply (c : Dev nD) (p : Fin 5120) (q : Fin 256) (n : ℕ) : ∀ (hn : n < cfg0.N),
    outsAt0 m c n hn (ix2 p q)
      = ∑ e ∈ Finset.range ((n % 157 + 1) * 2048), term (tgtArr m c) (msgArr m c) (n / 157) p q e := by
  induction n using Nat.strong_induction_on with
  | _ n ih =>
    intro hn
    have hN : cfg0.N = 314 := N_0
    have hn' : n < 314 := hN ▸ hn
    by_cases h0 : n % 157 = 0
    · rw [outsAt0_A m c ⟨n, hn⟩ h0]
      refine (congrFun (out_A (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) ((hcond0_0 ⟨n, hn⟩).mpr h0) (iblk m c 0 ⟨n, hn⟩) (iblk m c 1 ⟨n, hn⟩)) (ix2 p q)).trans ?_
      refine (pay2_apply (grid0.coords ⟨n, hn⟩) (tgtBlk m c ⟨n, hn⟩) (msgBlk m c ⟨n, hn⟩) (k0_pay1 (F := Ideal)) p q).trans ?_
      rw [pay1_apply, zero_add, coord_half ⟨n, hn⟩]
      simp only [tgtBlk_apply, msgBlk_apply]
      rw [← sum_block (term (tgtArr m c) (msgArr m c) (n / 157) p q) (n % 157), h0]
      simp only [Nat.zero_mul, Finset.range_zero, Finset.sum_empty, zero_add]
      rfl
    · have hn1 : n - 1 < cfg0.N := by omega
      rw [outsAt0_B m c ⟨n, hn⟩ h0]
      refine (congrFun (out_B (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (fun h => h0 ((hcond0_0 ⟨n, hn⟩).mp h)) (iblk m c 0 ⟨n, hn⟩) (iblk m c 1 ⟨n, hn⟩)
        (outsAt0 m c (n - 1) hn1)) (ix2 p q)).trans ?_
      refine (pay2_apply (grid0.coords ⟨n, hn⟩) (tgtBlk m c ⟨n, hn⟩) (msgBlk m c ⟨n, hn⟩) (outsAt0 m c (n - 1) hn1) p q).trans ?_
      rw [ih (n - 1) (by omega) hn1, coord_half ⟨n, hn⟩]
      simp only [tgtBlk_apply, msgBlk_apply]
      rw [← sum_block (term (tgtArr m c) (msgArr m c) (n / 157) p q) (n % 157),
        show (n - 1) % 157 + 1 = n % 157 by omega, show (n - 1) / 157 = n / 157 by omega]
      rfl

end Cert.KernelIdeal.Acc

end
-- ==== Proof.KFinal.lean ====
/-
  The padded result array after the run, and the result the program returns.

  The output window's block index is the node half; it is written back after the last edge block of
  each half (points 156 and 313), when it holds the sum over ALL padded edges. The two halves tile the
  padded result, so row `r`, column `q` ends at the sum over the padded edges `e` of
  `hot(e, node r) · msg(e, q)` — node `r` being node `r % 5120` of half `r / 5120`. The program then
  returns the first 10000 rows.
-/
import proofs.«426452_j51994874085829_3_alg».proof.Proof.KAccum
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- Row `r`'s position inside its half. -/
def inHalf (r : ℕ) : Fin 5120 := ⟨r % 5120, Nat.mod_lt _ (by decide)⟩

/-- Row `r`, column `q` of the padded result: the sum over all padded edges. -/
@[irreducible] def rowSum (c : Dev nD) (r : ℕ) (q : Fin 256) : EReal :=
  ∑ e ∈ Finset.range 321536, term (tgtArr m c) (msgArr m c) (r / 5120) (inHalf r) q e

/-- The padded result array. -/
def outArr (c : Dev nD) : Vec Ideal S10240x256 .f32 := fun i => rowSum m c (i 0).val (i 1)

/-- What a write-back writes is its block of the padded result. -/
theorem flushed_eq (c : Dev nD) (t : Fin cfg0.N) (hf : (cfg0.win 2).flush t = true) :
    (dats m 0 c).flushed 2 t = ((cfg0.win 2).blk t).view.read (Elt Ideal) (outArr m c) := by
  have h156 : t.val % 157 = 156 := (flush0_2 t).mp hf
  show (cfg0.win 2).cut (grid0.coords t) ((dats m 0 c).after 2 t) = _
  rw [after0_2]
  funext j
  obtain ⟨p, q, rfl⟩ : ∃ (p : Fin 5120) (q : Fin 256), j = ix2 p q := ⟨j 0, j 1, eq_ix2 j⟩
  refine (outsAt_apply m c p q t.val t.isLt).trans ?_
  rw [View.read_apply]
  have hp := p.isLt
  have e0 : ((((cfg0.win 2).blk t).view.emb (ix2 p q)) 0).val = t.val / 157 * 5120 + p.val := by
    show win0_2.index t 0 * 5120 + 1 * p.val = _
    rw [(idx_out t).1]; omega
  have e1 : (((cfg0.win 2).blk t).view.emb (ix2 p q)) 1 = q := Fin.ext (by
    show win0_2.index t 1 * 256 + 1 * q.val = q.val
    rw [(idx_out t).2]; omega)
  unfold outArr
  dsimp only
  rw [e0, e1]
  unfold rowSum
  rw [h156, show (156 + 1) * 2048 = 321536 from rfl, show (t.val / 157 * 5120 + p.val) / 5120 = t.val / 157 by omega,
    show inHalf (t.val / 157 * 5120 + p.val) = p from Fin.ext (by show (t.val / 157 * 5120 + p.val) % 5120 = p.val; omega)]
  exact (cast_eq _ _).symm

/-- Every block of the output window has the full extents 5120 × 256: decided over the grid. -/
theorem xsize_out : ∀ t : Fin cfg0.N, win0_2.xsize (grid0.coords t) (0 : Fin 2) = 5120 ∧ win0_2.xsize (grid0.coords t) (1 : Fin 2) = 256 :=
  (by decide +kernel : ∀ t : Fin grid0.N, win0_2.xsize (grid0.coords t) (0 : Fin 2) = 5120 ∧ win0_2.xsize (grid0.coords t) (1 : Fin 2) = 256)

/-- THE PADDED RESULT after the run: row `r` lies in the block written back after the last edge block
    of half `r / 5120`. -/
theorem final (c : Dev nD) : (dats m 0 c).arrAt 2 cfg0.N = outArr m c :=
  (dats m 0 c).arrAt_eq_of_cover 2 (outArr m c) (flushed_eq m c) fun i => by
    have hN : cfg0.N = 314 := N_0
    have hi0 : (i 0).val < 10240 := (i 0).isLt
    have hi1 : (i 1).val < 256 := (i 1).isLt
    have ht : (i 0).val / 5120 * 157 + 156 < cfg0.N := by omega
    obtain ⟨T, hT⟩ : ∃ T : Fin cfg0.N, T.val = (i 0).val / 5120 * 157 + 156 := ⟨⟨_, ht⟩, rfl⟩
    refine ⟨T, (flush0_2 T).mpr (by omega), ?_⟩
    show i ∈ ((View.whole main_v10).slice (win0_2.rect T)).set
    rw [View.set_slice_whole, Rect.mem_set_unit]
    have h0 := (idx_out T).1
    have h1 := (idx_out T).2
    intro a
    match a with
    | ⟨0, _⟩ =>
      show win0_2.index T 0 * win0_2.size 0 ≤ (i 0 : Nat) ∧ (i 0 : Nat) < win0_2.index T 0 * win0_2.size 0 + win0_2.xsize (grid0.coords T) 0
      rw [h0, (xsize_out T).1, show win0_2.size 0 = 5120 from rfl]; omega
    | ⟨1, _⟩ =>
      show win0_2.index T 1 * win0_2.size 1 ≤ (i 1 : Nat) ∧ (i 1 : Nat) < win0_2.index T 1 * win0_2.size 1 + win0_2.xsize (grid0.coords T) 1
      rw [h1, (xsize_out T).2, show win0_2.size 1 = 256 from rfl]; omega

/-- The returned result: the first 10000 rows of the padded result. -/
theorem tail_eq (c : Dev nD) : Pipeline.afterTail₀ cfgs (dats m) 0 (V0 m) [hostOps1] c main_v11
    = extractStridedSlice S10000x256 ![0, 0] (outArr m c) Facts₀.slices_S10240x256_S10000x256_0_0 := by
  unfold Pipeline.afterTail₀
  show StableHlo.after hostOps1 _ (Proc.devRef .tc main_v11) = _
  after_results
  exact congrArg (fun x => extractStridedSlice S10000x256 ![0, 0] x Facts₀.slices_S10240x256_S10000x256_0_0)
    ((Pipeline.withArrays_arr spec0 launch0.win.arr_inj c (V0 m c) (fun w => (dats m 0 c).arrAt w (cfgs 0).N) 2).trans (final m c))

/-- The run, read: the result at the first 10000 rows of the padded result, the arguments unchanged. -/
theorem run : θ_run defs (onTc (τ := τ) (main (F := Ideal))) ⟨m, fun _ => 0, ρ⟩ fun r => ∀ c : Dev nD,
      r.2.mem ((c.tc : Thread nD τ).loc main_v11)
        = extractStridedSlice S10000x256 ![0, 0] (outArr m c) Facts₀.slices_S10240x256_S10000x256_0_0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v11 (Pipeline.mem_restRefs_of main_v11 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Acc

end
-- ==== Proof.KHost.lean ====
/-
  The two padded arrays the kernel's region reads, as functions of the program's arguments.

  Before the region the program takes row 1 of the edge index as the target words, replaces every word
  that (read signed) is negative or at least 10000 by the sentinel 10240, and pads the targets with the
  sentinel and the messages with zero rows, from 320000 up to 321536 edges.
-/
import proofs.«426452_j51994874085829_3_alg».proof.Proof.KBlocks
import Idealize.ShloMosaic.Lib.StableHlo.Run
import Idealize.ShloMosaic.Lib.KernelVsHost

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The target words: row 1 of the edge index. -/
def tgtVec (x1 : Vec Ideal S2x320000 .i32) : IVec S320000 32 :=
  shapeCast S320000 (extractStridedSlice S1x320000 ![1, 0] x1 Facts₀.slices_S2x320000_S1x320000_1_0) Facts₀.shapeCasts_S1x320000_S320000

/-- The targets with every out-of-range word replaced by the sentinel. -/
def remapVec (x1 : Vec Ideal S2x320000 .i32) : IVec S320000 32 :=
  select (ori (cmpi .slt (tgtVec x1) (broadcastInDim S320000 ![] Facts₀.bcast_S_S320000 (constantI S_ 32 0#32)))
      (cmpi .sge (tgtVec x1) (broadcastInDim S320000 ![] Facts₀.bcast_S_S320000 (constantI S_ 32 10000#32))))
    (broadcastInDim S320000 ![] Facts₀.bcast_S_S320000 (id (constantI S_ 32 10240#32)))
    (tgtVec x1)

/-- The padded target vector the region finds. -/
theorem tgtArr_eq (c : Dev nD) : tgtArr m c
    = pad S321536 ![0] ![1536] ![0] (remapVec (m ((c.tc : Thread nD τ).loc main_arg1))) (id (constantI S_ 32 10240#32))
        Facts₀.pads_S320000_S321536_015360 Facts₀.h_S_ := by
  unfold tgtArr
  dsimp only [V, V0]
  simp only [hostOps0, hostOps0_1, hostOps0_2, hostOps0_3, hostOps0_4, hostOps0_5, List.flatten_cons, List.flatten_nil,
    List.append_nil, List.cons_append, List.nil_append]
  after_results
  rfl

/-- The padded message array the region finds. -/
theorem msgArr_eq (c : Dev nD) : msgArr m c
    = pad S321536x256 ![0, 0] ![1536, 0] ![0, 0] (m ((c.tc : Thread nD τ).loc main_arg0)) (sitofp (F := Ideal) .f32 (constantI S_ 32 0#32))
        Facts₀.pads_S320000x256_S321536x256_015360_000 Facts₀.h_S_ := by
  unfold msgArr
  dsimp only [V, V0]
  simp only [hostOps0, hostOps0_1, hostOps0_2, hostOps0_3, hostOps0_4, hostOps0_5, List.flatten_cons, List.flatten_nil,
    List.append_nil, List.cons_append, List.nil_append]
  after_results
  rfl

end Cert.KernelIdeal.Acc

end
-- ==== Proof.KEdges.lean ====
/-
  The padded arrays read at an edge.

  A real edge `e < 320000` has, in the padded target vector, its target word with out-of-range words
  replaced by the sentinel, and in the padded message array its own message row; a padding edge
  `320000 ≤ e < 321536` has a zero message row.
-/
import proofs.«426452_j51994874085829_3_alg».proof.Proof.KHost

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- A target word, with the out-of-range ones (negative, or at least 10000, read signed) sent to 10240. -/
def remapWord (w : BitVec 32) : BitVec 32 :=
  Scalar.select (IntOp.ori (IntOp.cmpi .slt w 0#32) (IntOp.cmpi .sge w 10000#32)) 10240#32 w

/-- Entry `e` of the target words is entry `(1, e)` of the edge index. -/
theorem tgtVec_apply (x1 : Vec Ideal S2x320000 .i32) (e : Fin 320000) :
    tgtVec x1 (ix1 e) = x1 (ix2 (1 : Fin 2) e) := by
  unfold tgtVec
  rw [shapeCast_apply _ Facts₀.shapeCasts_S1x320000_S320000 (ix1 e) (ix2 (0 : Fin 1) e)
    (by rw [Shape.rowMajor_val_two, Shape.rowMajor_val_one]; show 0 * 320000 + e.val = e.val; omega)]
  exact extractStridedSlice_apply ![1, 0] x1 Facts₀.slices_S2x320000_S1x320000_1_0 (ix2 (0 : Fin 1) e) (ix2 (1 : Fin 2) e)
    (fun a => match a with
      | ⟨0, _⟩ => by show 1 = 1 + 0; rfl
      | ⟨1, _⟩ => by show e.val = 0 + e.val; omega)

/-- Entry `e` of the remapped targets. -/
theorem remapVec_apply (x1 : Vec Ideal S2x320000 .i32) (e : Fin 320000) :
    remapVec x1 (ix1 e) = remapWord (x1 (ix2 (1 : Fin 2) e)) := by
  unfold remapVec
  show Scalar.select (IntOp.ori (IntOp.cmpi .slt (tgtVec x1 (ix1 e)) 0#32) (IntOp.cmpi .sge (tgtVec x1 (ix1 e)) 10000#32)) 10240#32 (tgtVec x1 (ix1 e)) = _
  rw [tgtVec_apply]
  rfl

/-- The padded target vector at a real edge. -/
theorem tgtArr_inside (c : Dev nD) (e : ℕ) (h : e < 320000) :
    tgtArr m c (ix1 (edgeIdx e)) = remapWord (m ((c.tc : Thread nD τ).loc main_arg1) (ix2 (1 : Fin 2) ⟨e, h⟩)) := by
  rw [tgtArr_eq, pad_apply_of_inside ![0] ![1536] ![0] _ _ Facts₀.pads_S320000_S321536_015360 Facts₀.h_S_ (ix1 (edgeIdx e)) (ix1 (⟨e, h⟩ : Fin 320000))
    (fun a => match a with
      | ⟨0, _⟩ => by show (edgeIdx e).val = 0 + e * (0 + 1); rw [edgeIdx_val_of_lt (by omega)]; omega),
    remapVec_apply]

/-- The padded message array at a real edge. -/
theorem msgArr_inside (c : Dev nD) (e : ℕ) (h : e < 320000) (q : Fin 256) :
    msgArr m c (ix2 (edgeIdx e) q) = m ((c.tc : Thread nD τ).loc main_arg0) (ix2 (⟨e, h⟩ : Fin 320000) q) := by
  rw [msgArr_eq]
  exact pad_apply_of_inside ![0, 0] ![1536, 0] ![0, 0] _ _ Facts₀.pads_S320000x256_S321536x256_015360_000 Facts₀.h_S_ (ix2 (edgeIdx e) q) (ix2 (⟨e, h⟩ : Fin 320000) q)
    (fun a => match a with
      | ⟨0, _⟩ => by show (edgeIdx e).val = 0 + e * (0 + 1); rw [edgeIdx_val_of_lt (by omega)]; omega
      | ⟨1, _⟩ => by show q.val = 0 + q.val * (0 + 1); omega)

/-- The padded message array at a padding edge: zero. -/
theorem msgArr_outside (c : Dev nD) (e : ℕ) (h1 : 320000 ≤ e) (h2 : e < 321536) (q : Fin 256) :
    msgArr m c (ix2 (edgeIdx e) q) = 0 := by
  rw [msgArr_eq]
  refine (pad_apply_of_not_inside (s := S320000x256) ![0, 0] ![1536, 0] ![0, 0] _ _ Facts₀.pads_S320000x256_S321536x256_015360_000 Facts₀.h_S_
    (ix2 (edgeIdx e) q) (0 : Fin 2) ?_).trans ?_
  · show ¬(0 ≤ (edgeIdx e).val ∧ ((edgeIdx e).val - 0) % (0 + 1) = 0 ∧ ((edgeIdx e).val - 0) / (0 + 1) < 320000)
    rw [edgeIdx_val_of_lt h2]; omega
  · show (((0#32 : BitVec 32).toInt : ℝ) : EReal) = 0
    simp

end Cert.KernelIdeal.Acc

end
-- ==== Proof.KValue.lean ====
/-
  The kernel's result as a segment sum.

  For a node `r < 10000` the node's word is the 32-bit word of `r`; an edge's remapped target word is
  that word exactly when its target, read signed, is `r` (an out-of-range target became the sentinel
  10240, which is no node below 10000); and the one-hot entry is then 1, otherwise 0. The padding
  edges carry zero messages. So row `r`, column `q` of the padded result is the sum, over the real
  edges whose target is `r`, of their messages' entries `q`: products with 1 and with 0 on the
  extended reals, where `0 · x = 0` for every `x`.
-/
import proofs.«426452_j51994874085829_3_alg».proof.Proof.KFinal
import proofs.«426452_j51994874085829_3_alg».proof.Proof.KEdges
import Idealize.ShloMosaic.Lib.WordArith
import Idealize.ShloMosaic.Lib.Affine

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Idealize.ShloMosaic.WordArith

variable (m : (ℓ : Loc nD τ sig) → Buf (Elt Ideal) ℓ)

/-- The one-hot entry is 1 when the two words are equal and 0 otherwise. -/
theorem hotEntry_eq (a b : BitVec 32) : hotEntry a b = if a = b then 1 else 0 := by
  unfold hotEntry IntOp.cmpi
  by_cases h : a = b
  · subst h; simp
  · rw [if_neg h]
    have : (a == b) = false := by simpa using h
    simp [this]

/-- The word the body computes for row `r` of the padded result is the word of `r`. -/
theorem nodeWord_eq (r : ℕ) (hr : r < 10240) : nodeWord (r / 5120) (inHalf r) = BitVec.ofNat 32 r := by
  unfold nodeWord inHalf IntOp.addi Scalar.muli IntOp.muli
  apply BitVec.eq_of_toNat_eq
  have h1 : r / 5120 < 2 := by omega
  simp only [BitVec.toNat_add, BitVec.toNat_mul, BitVec.toNat_ofNat]
  have e1 : r / 5120 % 2 ^ 32 = r / 5120 := Nat.mod_eq_of_lt (by omega)
  have e2 : r % 5120 % 2 ^ 32 = r % 5120 := Nat.mod_eq_of_lt (by omega)
  have e3 : 5120 % 2 ^ 32 = 5120 := by norm_num
  rw [e1, e2, e3]
  have e4 : r / 5120 * 5120 % 2 ^ 32 = r / 5120 * 5120 := Nat.mod_eq_of_lt (by omega)
  rw [e4]
  have e5 : r / 5120 * 5120 + r % 5120 = r := by omega
  rw [e5]

/-- A remapped target word is the word of a node `r < 10000` exactly when the target, read signed, is `r`. -/
theorem remapWord_eq_iff (w : BitVec 32) (r : ℕ) (hr : r < 10000) :
    remapWord w = BitVec.ofNat 32 r ↔ w.toInt = (r : Int) := by
  have hr' : (BitVec.ofNat 32 r).toInt = (r : Int) := toInt_ofNat_small r (by omega)
  have h0 : (0#32 : BitVec 32).toInt = 0 := by decide
  have h1 : (10000#32 : BitVec 32).toInt = 10000 := by decide
  unfold remapWord Scalar.select
  by_cases hc : IntOp.ori (IntOp.cmpi .slt w 0#32) (IntOp.cmpi .sge w 10000#32) = 1
  · rw [if_pos hc]
    have hout : w.toInt < 0 ∨ 10000 ≤ w.toInt := by
      unfold IntOp.cmpi at hc
      rw [ori_ofBool, ofBool_eq_numeral_one_iff, Bool.or_eq_true, BitVec.slt_iff_toInt_lt, BitVec.sle_iff_toInt_le, h0, h1] at hc
      exact hc
    constructor
    · intro h
      have := congrArg BitVec.toNat h
      simp only [BitVec.toNat_ofNat] at this
      omega
    · intro h; omega
  · rw [if_neg hc]
    constructor
    · intro h; rw [h, hr']
    · intro h; exact BitVec.eq_of_toInt_eq (by rw [h, hr'])

/-- The program's two arguments, at their literal types. -/
abbrev msgArg (c : Dev nD) : Vec Ideal S320000x256 .f32 := m ((c.tc : Thread nD τ).loc main_arg0)
abbrev idxArg (c : Dev nD) : Vec Ideal S2x320000 .i32 := m ((c.tc : Thread nD τ).loc main_arg1)

/-- What a real edge contributes to a node `r < 10000`: its message entry if its target is `r`, else zero. -/
theorem term_inside (c : Dev nD) (r : ℕ) (hr : r < 10000) (q : Fin 256) (e : ℕ) (he : e < 320000) :
    term (tgtArr m c) (msgArr m c) (r / 5120) (inHalf r) q e
      = if (idxArg m c (ix2 (1 : Fin 2) ⟨e, he⟩)).toInt = (r : Int) then msgArg m c (ix2 (⟨e, he⟩ : Fin 320000) q) else 0 := by
  unfold term
  rw [tgtArr_inside m c e he, msgArr_inside m c e he, nodeWord_eq r (by omega), hotEntry_eq]
  show (if remapWord (idxArg m c (ix2 (1 : Fin 2) ⟨e, he⟩)) = BitVec.ofNat 32 r then (1 : EReal) else 0) * msgArg m c (ix2 (⟨e, he⟩ : Fin 320000) q) = _
  simp only [remapWord_eq_iff _ r hr]
  split
  · exact one_mul _
  · exact zero_mul _

/-- A padding edge contributes nothing. -/
theorem term_outside (c : Dev nD) (h : ℕ) (p : Fin 5120) (q : Fin 256) (e : ℕ) (h1 : 320000 ≤ e) (h2 : e < 321536) :
    term (tgtArr m c) (msgArr m c) h p q e = 0 := by
  unfold term
  rw [msgArr_outside m c e h1 h2, mul_zero]

/-- ROW `r < 10000` OF THE PADDED RESULT is the segment sum of the messages over the target `r`. -/
theorem rowSum_eq (c : Dev nD) (r : Fin 10000) (q : Fin 256) :
    rowSum m c r.val q
      = ∑ e : Fin 320000, if (idxArg m c (ix2 (1 : Fin 2) e)).toInt = (r.val : Int) then msgArg m c (ix2 e q) else 0 := by
  have hr := r.isLt
  unfold rowSum
  refine (Finset.sum_range_add (fun e => term (tgtArr m c) (msgArr m c) (r.val / 5120) (inHalf r.val) q e) 320000 1536).trans ?_
  rw [Finset.sum_eq_zero (s := Finset.range 1536) (fun k hk => term_outside m c _ _ q (320000 + k) (by omega)
      (by have := Finset.mem_range.mp hk; omega)),
    add_zero, Finset.sum_range]
  exact Finset.sum_congr rfl fun e _ => term_inside m c r.val hr q e.val e.isLt

/-- THE RETURNED RESULT AT `(n, j)`. -/
theorem result_apply (c : Dev nD) (n : Fin 10000) (j : Fin 256) :
    extractStridedSlice S10000x256 ![0, 0] (outArr m c) Facts₀.slices_S10240x256_S10000x256_0_0 (ix2 n j)
      = ∑ e : Fin 320000, if (idxArg m c (ix2 (1 : Fin 2) e)).toInt = (n.val : Int) then msgArg m c (ix2 e j) else 0 := by
  have hn := n.isLt
  rw [extractStridedSlice_apply ![0, 0] (outArr m c) Facts₀.slices_S10240x256_S10000x256_0_0 (ix2 n j) (ix2 (⟨n.val, by omega⟩ : Fin 10240) j)
    (fun a => match a with
      | ⟨0, _⟩ => by show n.val = 0 + n.val; omega
      | ⟨1, _⟩ => by show j.val = 0 + j.val; omega)]
  unfold outArr
  exact rowSum_eq m c n j

end Cert.KernelIdeal.Acc

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.RefSide.lean ====
/-
  The reference's result read at an index.

  The reference is one accumulating scatter of the message rows onto a zero array of 10000 rows, row
  `e` landing on the row its target word (row 1 of the edge index, read signed) names and dropped when
  that is no row. So entry `(n, j)` of the result is the sum, over the edges whose target is `n`, of
  their messages' entries `j`.
-/
import proofs.«426452_j51994874085829_3_alg».proof.Defs
import proofs.«426452_j51994874085829_3_alg».proof.Proof.Gen.ReferenceIdeal.Run
import proofs.«426452_j51994874085829_3_alg».proof.Proof.Gen.ReferenceIdeal.Read
import proofs.«426452_j51994874085829_3_alg».proof.Proof.LibScatterRows
import Idealize.ShloMosaic.PureOps.Ideal.Laws

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Idealize.ShloMosaic.ValueIdx Idealize.ShloMosaic.SegSum

/-- The scatter's dimension numbers are those of a row scatter. -/
theorem scatter_eq : scatter_S10000x256_S320000x1_S320000x256_1_0_0_1
    = rowsDims 10000 320000 256 Facts₀.scatter_S10000x256_S320000x1_S320000x256_1_0_0_1_wf := rfl

/-- The scatter index of update row `e` is entry `(1, e)` of the edge index. -/
theorem idx_apply (x1 : (⟨S2x320000, .i32⟩ : BufTy).Contents (Elt Ideal)) (e : Fin 320000) :
    val_main_v3 (F := Ideal) x1 (ix2 e (0 : Fin 1)) = x1 (ix2 (1 : Fin 2) e) := by
  rw [val_main_v3_apply, val_main_v1_apply, val_main_v0_apply]
  congr 1
  funext a
  apply Fin.ext
  match a with
  | ⟨0, _⟩ => rfl
  | ⟨1, _⟩ => show e.val % 320000 = e.val; exact Nat.mod_eq_of_lt e.isLt

/-- THE REFERENCE AT `(n, j)`. -/
theorem ref_apply (x0 : (⟨S320000x256, .f32⟩ : BufTy).Contents (Elt Ideal)) (x1 : (⟨S2x320000, .i32⟩ : BufTy).Contents (Elt Ideal))
    (n : Fin 10000) (j : Fin 256) :
    val_main_v4 (F := Ideal) x0 x1 (ix2 n j)
      = ∑ e : Fin 320000, if (x1 (ix2 (1 : Fin 2) e)).toInt = (n.val : Int) then x0 (ix2 e j) else 0 := by
  unfold val_main_v4
  show Ideal.hostScatterAdd scatter_S10000x256_S320000x1_S320000x256_1_0_0_1 (val_main_v2 (F := Ideal)) (val_main_v3 (F := Ideal) x1) x0 (ix2 n j) = _
  rw [scatter_eq, hostScatterAdd_rows_apply, val_main_v2_apply, val_main_cst_apply]
  show Ideal.ofBits .f32 0x00000000#32 + _ = _
  rw [Ideal.ofBits_zero_f32, zero_add]
  unfold rowsOf
  rw [Finset.sum_filter]
  simp only [idx_apply]

end Cert.ReferenceIdeal.RefValue

end
-- ==== Proof.lean ====
/-
  A segment sum computed as a one-hot matrix product, against jnp's segment sum.

  THE KERNEL pads the 320000 edges to 321536 = 157 · 2048 (zero message rows, sentinel targets), sends
  every target that is not a node number in [0, 10000) to the sentinel 10240, and runs a grid of
  2 node halves × 157 edge blocks. At a point it builds the 2048 × 5120 one-hot matrix "edge k of the
  block targets node p of the half", multiplies its transpose with the block's 2048 × 256 messages and
  adds the product to the half's 5120 × 256 output block, which it zeroed at the half's first edge
  block and which is written back after the last. The first 10000 of the 10240 rows are returned.

  THE REFERENCE is one accumulating scatter: message row e is added onto row target(e) of a zero
  10000 × 256 array, and dropped when target(e), read signed, is no row.

  Over the extended reals both are, at (n, j), the sum of msg(e, j) over the edges e with target n:
  on the kernel's side a sum over all padded edges of (1 or 0) · msg, where 1 · x = x and 0 · x = 0
  for EVERY extended real x (no finiteness is used), the partial sums of the edge blocks joined by
  the grid's accumulation; on the reference's side the scatter's own meaning.

  The frames of the two kernel programs are the generated ones; the reference's frame is its
  generated run. The ideal pass rewrote nothing, so `preserves` is trivial.
-/
import proofs.«426452_j51994874085829_3_alg».proof.Defs
import proofs.«426452_j51994874085829_3_alg».proof.Proof.Gen.Kernel
import proofs.«426452_j51994874085829_3_alg».proof.Proof.Gen.Kernel.Skeleton
import proofs.«426452_j51994874085829_3_alg».proof.Proof.Gen.Kernel.Launch
import proofs.«426452_j51994874085829_3_alg».proof.Proof.Gen.Kernel.Points
import proofs.«426452_j51994874085829_3_alg».proof.Proof.Gen.Kernel.Frame
import proofs.«426452_j51994874085829_3_alg».proof.Proof.Gen.KernelIdeal
import proofs.«426452_j51994874085829_3_alg».proof.Proof.Gen.KernelIdeal.Skeleton
import proofs.«426452_j51994874085829_3_alg».proof.Proof.Gen.KernelIdeal.Launch
import proofs.«426452_j51994874085829_3_alg».proof.Proof.Gen.KernelIdeal.Points
import proofs.«426452_j51994874085829_3_alg».proof.Proof.Gen.KernelIdeal.Frame
import proofs.«426452_j51994874085829_3_alg».proof.Proof.Gen.ReferenceIdeal
import proofs.«426452_j51994874085829_3_alg».proof.Proof.Gen.ReferenceIdeal.Run
import proofs.«426452_j51994874085829_3_alg».proof.Proof.Gen.ReferenceIdeal.Read
import proofs.«426452_j51994874085829_3_alg».proof.Proof.Gen.Pre_finite_inputs
import proofs.«426452_j51994874085829_3_alg».proof.Proof.KValue
import proofs.«426452_j51994874085829_3_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, at every `(n, j)`, at the sum of `msg(e, j)` over the edges with target `n`. -/
theorem algebraic : Cert.algebraic_KernelIdeal_ReferenceIdeal := by
  intro m ρ m' ρ' _ hagree
  refine ⟨fun c => extractStridedSlice Cert.KernelIdeal.S10000x256 ![0, 0] (Cert.KernelIdeal.Acc.outArr m c)
    Cert.KernelIdeal.Facts₀.slices_S10240x256_S10000x256_0_0, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  funext i
  obtain ⟨n, j, rfl⟩ : ∃ (n : Fin 10000) (j : Fin 256), i = ix2 n j := ⟨i 0, i 1, eq_ix2 i⟩
  exact (Cert.ReferenceIdeal.RefValue.ref_apply _ _ n j).trans (Cert.KernelIdeal.Acc.result_apply m c n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
